-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S1x1x1024x64 : Shape := ⟨4, ![1, 1, 1024, 64]⟩
abbrev S1x1x2048x64 : Shape := ⟨4, ![1, 1, 2048, 64]⟩
abbrev S2048x64 : Shape := ⟨2, ![2048, 64]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x64, .f32⟩
  | .local _ .vmem, ⟨7, _⟩ => ⟨S1x1x1024x64, .f32⟩
  | .local _ .vmem, ⟨8, _⟩ => ⟨S2048x64, .bf16⟩
  | .local _ .vmem, ⟨9, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x16x2048x64.size a
  hwx0_0 : ∀ i : grid0.Coords, EltTy.bits .f32 = 32 ∨ (Rect.block (s := S2x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S2x16x2048x64.size a
  hwx0_3 : ∀ i : grid0.Coords, EltTy.bits .f32 = 32 ∨ (Rect.block (s := S2x16x2048x64) S1x1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Consts.lean ====
/-
  The float constants the two programs spell, as the extended reals their bit patterns denote.
  The kernel scales the queries by the word 0x3E000000, which is 2^-3 = 1/8; the reference divides 1 by the
  square root of the word 0x42800000, which is 64, and sqrt 64 = 8: the two scales are the same real number.
  Both programs start their row maximum at 0xFF800000, the pattern of minus infinity (the bottom of the
  extended reals), and their sums at the zero word.
-/
import Idealize.ShloMosaic.PureOps.Ideal
import Idealize.ShloMosaic.PureOps.Ideal.Laws

noncomputable section

namespace Cert.Attn.Consts

open Idealize.ShloMosaic

/-- The kernel's query scale: the word 0x3E000000 denotes 1/8. -/
theorem ofBits_eighth : Ideal.ofBits .f32 0x3E000000#32 = ((1 / 8 : ℝ) : EReal) := by
  simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-- The reference's head dimension: the word 0x42800000 denotes 64. -/
theorem ofBits_64 : Ideal.ofBits .f32 0x42800000#32 = ((64 : ℝ) : EReal) := by
  simp [Ideal.ofBits, Ideal.ieee, -EReal.coe_mul]; norm_num

/-- The word 0xFF800000 denotes minus infinity. -/
theorem ofBits_neg_inf : Ideal.ofBits .f32 0xFF800000#32 = (⊥ : EReal) := by
  simp [Ideal.ofBits, Ideal.ieee]

/-- The square root of 64 is 8. -/
theorem sqrt_64 : Real.sqrt 64 = 8 := by
  rw [show (64 : ℝ) = 8 * 8 by norm_num]; exact Real.sqrt_mul_self (by norm_num)

/-- The reference's scale, 1 / sqrt 64 as the host computes it on extended reals, is 1/8. -/
theorem ref_scale : Ideal.div ((1 : ℝ) : EReal) (Ideal.sqrt ((64 : ℝ) : EReal)) = ((1 / 8 : ℝ) : EReal) := by
  rw [Ideal.sqrt_coe, if_neg (by norm_num), sqrt_64, Ideal.div_coe (by norm_num : (8 : ℝ) ≠ 0), ← EReal.coe_mul]
  norm_num

end Cert.Attn.Consts

end
-- ==== Proof.Spec.lean ====
/-
  The mathematics of the certificate, with no program in sight.

  For arrays Q, K, V of shape [2, 16, 2048, 64] (batch, head, position, feature) of extended reals, single-pass
  softmax attention of query row (b, h, q) at feature d is written in two arrangements.

  The kernel's arrangement (`attn`): the query is scaled FIRST, by the constant c whose word is 0x3E000000,
      s_j = sum over e of (Q[b,h,q,e] * c) * K[b,h,j,e],     M = max over j of s_j (from minus infinity),
      w_j = exp (s_j - M),     result = (sum over j of w_j * V[b,h,j,d]) * (1 / sum over j of w_j).

  The reference's arrangement (`attnRef`): the dot product is scaled AFTERWARDS, by 1 / sqrt 64,
      s'_j = (sum over e of Q[b,h,q,e] * K[b,h,j,e]) * (1 / sqrt 64),   M' = max (minus infinity) (max over j of s'_j),
      w'_j = exp (s'_j - M'),   result = sum over j of (w'_j / (0 + sum over j' of w'_j')) * V[b,h,j,d].

  On FINITE inputs the two agree (`attnRef_eq_attn`): c = 1/8 = 1 / sqrt 64; a real factor moves across a finite
  sum of reals; the maximum of finitely many reals is a real, so every weight exp (s_j - M) is a positive real and
  the denominator is a positive real; and dividing each weight by the denominator before the sum is multiplying the
  sum by the reciprocal afterwards. Each of these steps fails at an infinity, which is why finiteness is assumed.
-/
import Idealize.ShloMosaic.PureOps.Ideal
import Idealize.ShloMosaic.PureOps.Ideal.Laws
import Idealize.ShloMosaic.Lib.ValueIdx
import proofs.«404997_j1400159338596_3_alg».proof.Proof.Consts

noncomputable section

open scoped BigOperators

namespace Cert.Attn

open Idealize.ShloMosaic Idealize.ShloMosaic.ValueIdx

/-- The shape of the three inputs and of the result. -/
abbrev SQ : Shape := ⟨4, ![2, 16, 2048, 64]⟩

/-! ## Sums and maxima of real-valued families inside the extended reals -/

/-- A finite sum of reals, each read as an extended real, is the real sum read as an extended real. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The running maximum, started at minus infinity, of a nonempty finite family of reals is a real. -/
theorem fold_max_coe {ι : Type*} (s : Finset ι) (hs : s.Nonempty) (f : ι → ℝ) :
    ∃ M : ℝ, s.fold max (⊥ : EReal) (fun j => ((f j : ℝ) : EReal)) = (M : EReal) := by
  induction hs using Finset.Nonempty.cons_induction with
  | singleton a => exact ⟨f a, by rw [Finset.fold_singleton]; exact max_eq_left bot_le⟩
  | cons a s ha _ ih =>
    obtain ⟨M, hM⟩ := ih
    rw [Finset.fold_cons, hM]
    rcases le_total (f a) M with h | h
    · exact ⟨M, max_eq_right (EReal.coe_le_coe_iff.mpr h)⟩
    · exact ⟨f a, max_eq_left (EReal.coe_le_coe_iff.mpr h)⟩

/-! ## The two arrangements -/

section Defs
variable (Q K V : SQ.Idx → EReal)

/-- The kernel's score of query row (b, h, q) against key j: the query scaled by the constant first. -/
def score (b : Fin 2) (h : Fin 16) (q j : Fin 2048) : EReal :=
  ∑ e : Fin 64, (Q (ix4 b h q e) * Ideal.ofBits .f32 0x3E000000#32) * K (ix4 b h j e)

/-- The row's maximum score, started at minus infinity. -/
def rowMax (b : Fin 2) (h : Fin 16) (q : Fin 2048) : EReal :=
  (Finset.univ : Finset (Fin 2048)).fold max (Ideal.ofBits .f32 0xFF800000#32) (score Q K b h q)

/-- The unnormalised softmax weight of key j. -/
def weight (b : Fin 2) (h : Fin 16) (q j : Fin 2048) : EReal :=
  Ideal.exp (score Q K b h q j - rowMax Q K b h q)

/-- Attention in the kernel's arrangement: the weighted sum of the values, times the reciprocal of the weights' sum. -/
def attnAt (b : Fin 2) (h : Fin 16) (q : Fin 2048) (d : Fin 64) : EReal :=
  (∑ j : Fin 2048, weight Q K b h q j * V (ix4 b h j d))
    * Ideal.div (Ideal.ofBits .f32 0x3F800000#32) (∑ j : Fin 2048, weight Q K b h q j)

/-- The same as one function of the array index. -/
def attn : SQ.Idx → EReal := fun i => attnAt Q K V (i 0) (i 1) (i 2) (i 3)

/-- The reference's score: the dot product scaled afterwards by 1 / sqrt 64. -/
def scoreRef (b : Fin 2) (h : Fin 16) (q j : Fin 2048) : EReal :=
  (∑ e : Fin 64, Q (ix4 b h q e) * K (ix4 b h j e))
    * Ideal.div (Ideal.ofBits .f32 0x3F800000#32) (Ideal.sqrt (Ideal.ofBits .f32 0x42800000#32))

/-- The reference's row maximum: jax's softmax takes the maximum with minus infinity once more. -/
def rowMaxRef (b : Fin 2) (h : Fin 16) (q : Fin 2048) : EReal :=
  max (Ideal.ofBits .f32 0xFF800000#32)
    ((Finset.univ : Finset (Fin 2048)).fold max (Ideal.ofBits .f32 0xFF800000#32) (scoreRef Q K b h q))

/-- The reference's unnormalised weight. -/
def weightRef (b : Fin 2) (h : Fin 16) (q j : Fin 2048) : EReal :=
  Ideal.exp (scoreRef Q K b h q j - rowMaxRef Q K b h q)

/-- Attention in the reference's arrangement: each weight divided by the weights' sum (from zero), then the
    weighted sum of the values. -/
def attnRefAt (b : Fin 2) (h : Fin 16) (q : Fin 2048) (d : Fin 64) : EReal :=
  ∑ j : Fin 2048, Ideal.div (weightRef Q K b h q j)
      (Ideal.ofBits .f32 0x00000000#32 + ∑ j' : Fin 2048, weightRef Q K b h q j') * V (ix4 b h j d)

/-- The same as one function of the array index. -/
def attnRef : SQ.Idx → EReal := fun i => attnRefAt Q K V (i 0) (i 1) (i 2) (i 3)

end Defs

/-! ## On finite inputs the two arrangements agree -/

section Finite
variable (Qr Kr Vr : SQ.Idx → ℝ)

/-- The real score both arrangements compute on real inputs. -/
def scoreR (b : Fin 2) (h : Fin 16) (q j : Fin 2048) : ℝ :=
  (∑ e : Fin 64, Qr (ix4 b h q e) * Kr (ix4 b h j e)) * (1 / 8)

theorem score_coe (b : Fin 2) (h : Fin 16) (q j : Fin 2048) :
    score (fun i => (Qr i : EReal)) (fun i => (Kr i : EReal)) b h q j = (scoreR Qr Kr b h q j : EReal) := by
  unfold score scoreR
  rw [Consts.ofBits_eighth]
  simp only [← EReal.coe_mul]
  rw [coe_sum, Finset.sum_mul]
  exact congrArg _ (Finset.sum_congr rfl fun e _ => by ring)

theorem scoreRef_coe (b : Fin 2) (h : Fin 16) (q j : Fin 2048) :
    scoreRef (fun i => (Qr i : EReal)) (fun i => (Kr i : EReal)) b h q j = (scoreR Qr Kr b h q j : EReal) := by
  unfold scoreRef scoreR
  rw [Consts.ofBits_one, Consts.ofBits_64, Consts.ref_scale]
  simp only [← EReal.coe_mul]
  rw [coe_sum, ← EReal.coe_mul]

/-- Both row maxima are one real number. -/
theorem rowMax_coe (b : Fin 2) (h : Fin 16) (q : Fin 2048) :
    ∃ M : ℝ, rowMax (fun i => (Qr i : EReal)) (fun i => (Kr i : EReal)) b h q = (M : EReal)
      ∧ rowMaxRef (fun i => (Qr i : EReal)) (fun i => (Kr i : EReal)) b h q = (M : EReal) := by
  obtain ⟨M, hM⟩ := fold_max_coe (Finset.univ : Finset (Fin 2048)) ⟨0, Finset.mem_univ _⟩ (scoreR Qr Kr b h q)
  refine ⟨M, ?_, ?_⟩
  · unfold rowMax
    rw [Consts.ofBits_neg_inf, show score (fun i => (Qr i : EReal)) (fun i => (Kr i : EReal)) b h q
      = fun j => ((scoreR Qr Kr b h q j : ℝ) : EReal) from funext fun j => score_coe Qr Kr b h q j]
    exact hM
  · unfold rowMaxRef
    rw [Consts.ofBits_neg_inf, show scoreRef (fun i => (Qr i : EReal)) (fun i => (Kr i : EReal)) b h q
      = fun j => ((scoreR Qr Kr b h q j : ℝ) : EReal) from funext fun j => scoreRef_coe Qr Kr b h q j, hM]
    exact max_eq_right bot_le

/-- Normalising each weight before the weighted sum is multiplying the weighted sum by the reciprocal of the
    weights' total afterwards, for real weights whose total is not zero. -/
theorem normalise (w v : Fin 2048 → ℝ) (hS : (∑ j, w j) ≠ 0) :
    (∑ j : Fin 2048, ((w j : ℝ) : EReal) * ((v j : ℝ) : EReal))
        * Ideal.div (Ideal.ofBits .f32 0x3F800000#32) (∑ j : Fin 2048, ((w j : ℝ) : EReal))
      = ∑ j : Fin 2048, Ideal.div ((w j : ℝ) : EReal)
          (Ideal.ofBits .f32 0x00000000#32 + ∑ j' : Fin 2048, ((w j' : ℝ) : EReal)) * ((v j : ℝ) : EReal) := by
  rw [Consts.ofBits_one, Ideal.ofBits_zero_f32, zero_add, coe_sum Finset.univ w, Ideal.div_coe hS]
  simp only [Ideal.div_coe hS, ← EReal.coe_mul]
  rw [coe_sum, coe_sum, ← EReal.coe_mul, Finset.sum_mul]
  exact congrArg _ (Finset.sum_congr rfl fun j _ => by ring)

/-- ON FINITE INPUTS THE REFERENCE'S ARRANGEMENT IS THE KERNEL'S, at every row and feature. -/
theorem attnRefAt_eq_attnAt_coe (b : Fin 2) (h : Fin 16) (q : Fin 2048) (d : Fin 64) :
    attnRefAt (fun i => (Qr i : EReal)) (fun i => (Kr i : EReal)) (fun i => (Vr i : EReal)) b h q d
      = attnAt (fun i => (Qr i : EReal)) (fun i => (Kr i : EReal)) (fun i => (Vr i : EReal)) b h q d := by
  obtain ⟨M, hM, hM'⟩ := rowMax_coe Qr Kr b h q
  have hw : ∀ j, weight (fun i => (Qr i : EReal)) (fun i => (Kr i : EReal)) b h q j
      = ((Real.exp (scoreR Qr Kr b h q j - M) : ℝ) : EReal) := fun j => by
    unfold weight; rw [score_coe, hM, ← EReal.coe_sub, Ideal.exp_coe]
  have hw' : ∀ j, weightRef (fun i => (Qr i : EReal)) (fun i => (Kr i : EReal)) b h q j
      = ((Real.exp (scoreR Qr Kr b h q j - M) : ℝ) : EReal) := fun j => by
    unfold weightRef; rw [scoreRef_coe, hM', ← EReal.coe_sub, Ideal.exp_coe]
  have hS : (∑ j : Fin 2048, Real.exp (scoreR Qr Kr b h q j - M)) ≠ 0 :=
    ne_of_gt (Finset.sum_pos (fun j _ => Real.exp_pos _) ⟨0, Finset.mem_univ _⟩)
  unfold attnRefAt attnAt
  simp only [hw, hw']
  exact (normalise (fun j => Real.exp (scoreR Qr Kr b h q j - M)) (fun j => Vr (ix4 b h j d)) hS).symm

end Finite

/-- The same for arrays of extended reals every entry of which is a real. -/
theorem attnRef_eq_attn (Q K V : SQ.Idx → EReal) (hQ : ∀ i, ∃ r : ℝ, Q i = (r : EReal))
    (hK : ∀ i, ∃ r : ℝ, K i = (r : EReal)) (hV : ∀ i, ∃ r : ℝ, V i = (r : EReal)) :
    attnRef Q K V = attn Q K V := by
  choose Qr hQr using hQ
  choose Kr hKr using hK
  choose Vr hVr using hV
  obtain rfl : Q = fun i => (Qr i : EReal) := funext hQr
  obtain rfl : K = fun i => (Kr i : EReal) := funext hKr
  obtain rfl : V = fun i => (Vr i : EReal) := funext hVr
  funext i
  exact attnRefAt_eq_attnAt_coe Qr Kr Vr (i 0) (i 1) (i 2) (i 3)

end Cert.Attn

end
-- ==== Proof.KernelPieces.lean ====
/-
  What each of the kernel body's two control cases leaves in the buffers it stores, as values.

  The body has one branch: at the first query tile of a head (case A) it copies the head's key block and value
  block into the two scratch buffers, then computes; at the second query tile (case B) it only computes, reading
  the scratch buffers as the tile before left them. Each buffer is written by ONE store of its whole extent, so
  what it holds afterwards is that store's payload, and a load of a scratch buffer after its store in the same run
  reads that payload back. Hence:
    case A leaves the key scratch at the key payload of the key block, the value scratch at the value payload of
    the value block, and the output block at the attention payload of the query block and those two payloads;
    case B leaves the output block at the attention payload of the query block and the carried scratch contents.
  All of it holds at any float instance.
-/
import proofs.«404997_j1400159338596_3_alg».proof.Proof.Gen.KernelIdeal.Frame
import Idealize.ShloMosaic.Lib.Pipeline.Value
import Idealize.ShloMosaic.Lib.Tactic

noncomputable section

namespace Cert.KernelIdeal.AttnValue

open Cert.KernelIdeal Cert.KernelIdeal.Gen Idealize.ShloMosaic Idealize.ShloMosaic.TcCoe Idealize.SL.Sem Idealize.ShloMosaic.Tactic

variable {F : FTy → Type} [FloatOps F]

/-- The zero offsets of a rank-2 store or load, however spelt. -/
theorem hz2 : (![0, 0] : Fin 2 → Nat) = fun _ => 0 := funext fun a => by fin_cases a <;> rfl
/-- The zero offsets of a rank-4 store or load. -/
theorem hz4 : (![0, 0, 0, 0] : Fin 4 → Nat) = fun _ => 0 := funext fun a => by fin_cases a <;> rfl

/-- Case A leaves the key scratch at the key payload of the key block. -/
theorem keyScratch_A (c : Dev nD) (i : grid0.Coords) (arg3 : Memref sig .tc .vmem S1x1x1024x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x1024x64 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x1x1024x64 .f32) (x1 : Vec F S1x1x2048x64 .f32) (x2 : Vec F S1x1x2048x64 .f32) :
    sout0_A_0 c i arg3 harg3 arg4 harg4 arg5 harg5 arg6 harg6 arg7 harg7 arg8 harg8 hc0 x0 x1 x2 = k0_pay1 x1 := by
  unfold sout0_A_0
  rw [View.read_writes_eq_canon _ _ _ (scover0_A_0 c i arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg4.read_unread, View.ld_unit_zero (S := S1x1x2048x64) hz4]

/-- Case A leaves the value scratch at the value payload of the value block. -/
theorem valScratch_A (c : Dev nD) (i : grid0.Coords) (arg3 : Memref sig .tc .vmem S1x1x1024x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x1024x64 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x1x1024x64 .f32) (x1 : Vec F S1x1x2048x64 .f32) (x2 : Vec F S1x1x2048x64 .f32) :
    sout0_A_1 c i arg3 harg3 arg4 harg4 arg5 harg5 arg6 harg6 arg7 harg7 arg8 harg8 hc0 x0 x1 x2 = k0_pay2 x2 := by
  unfold sout0_A_1
  rw [View.read_writes_eq_canon _ _ _ (scover0_A_1 c i arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg5.read_unread, View.ld_unit_zero (S := S1x1x2048x64) hz4]

/-- Case A leaves the output block at the attention payload of the query block and the two payloads it has just
    stored into the scratch buffers (its loads of the scratch read those stores back). -/
theorem out_A (c : Dev nD) (i : grid0.Coords) (arg3 : Memref sig .tc .vmem S1x1x1024x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x1024x64 .f32) (harg6 : arg6.IsWhole) (arg7 : Memref sig .tc .vmem S2048x64 .bf16) (harg7 : arg7.IsWhole) (arg8 : Memref sig .tc .vmem S2048x64 .bf16) (harg8 : arg8.IsWhole) (hc0 : cond0_0 i)
    (x0 : Vec F S1x1x1024x64 .f32) (x1 : Vec F S1x1x2048x64 .f32) (x2 : Vec F S1x1x2048x64 .f32) :
    out0_A_3 c i arg3 harg3 arg4 harg4 arg5 harg5 arg6 harg6 arg7 harg7 arg8 harg8 hc0 x0 x1 x2 = k0_pay3 x0 (k0_pay1 x1) (k0_pay2 x2) := by
  unfold out0_A_3
  rw [View.read_writes_eq_canon _ _ _ (cover0_A_3 c i arg3 harg3 arg4 harg4 arg5 harg5 arg6 harg6 arg7 harg7 arg8 harg8 hc0 x0 x1 x2)]
  unfold kernelRun0_A
  dsimp only
  sl_unfold_words
  rw [View.canon_unit_zero hz4]
  simp only [View.readAt_eq_ld, harg3.read_unread, harg4.read_unread, harg5.read_unread,
    View.ld_unit_zero (S := S1x1x1024x64) hz4, View.ld_unit_zero (S := S1x1x2048x64) hz4,
    View.readCov_unit_zero (S := S2048x64) _ hz2]

/-- Case B leaves the output block at the attention payload of the query block and the carried scratch contents. -/
theorem out_B (c : Dev nD) (i : grid0.Coords) (arg3 : Memref sig .tc .vmem S1x1x1024x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x1024x64 .f32) (harg6 : arg6.IsWhole) (arg7 : Memref sig .tc .vmem S2048x64 .bf16) (harg7 : arg7.IsWhole) (arg8 : Memref sig .tc .vmem S2048x64 .bf16) (harg8 : arg8.IsWhole) (hc0 : ¬cond0_0 i)
    (x0 : Vec F S1x1x1024x64 .f32) (x1 : Vec F S1x1x2048x64 .f32) (x2 : Vec F S1x1x2048x64 .f32) (xs0 xs1 : Vec F S2048x64 .bf16) :
    out0_B_3 c i arg3 harg3 arg4 harg4 arg5 harg5 arg6 harg6 arg7 harg7 arg8 harg8 hc0 x0 x1 x2 xs0 xs1 = k0_pay3 x0 xs0 xs1 := by
  unfold out0_B_3
  rw [View.read_writes_eq_canon _ _ _ (cover0_B_3 c i arg3 harg3 arg4 harg4 arg5 harg5 arg6 harg6 arg7 harg7 arg8 harg8 hc0 x0 x1 x2 xs0 xs1)]
  unfold kernelRun0_B
  dsimp only
  sl_unfold_words
  rw [View.canon_unit_zero hz4]
  simp only [View.readAt_eq_ld, harg3.read_unread, harg7.read_unread, harg8.read_unread,
    View.ld_unit_zero (S := S1x1x1024x64) hz4, View.ld_unit_zero (S := S2048x64) hz2]

end Cert.KernelIdeal.AttnValue

end
-- ==== Proof.LibColumn.lean ====
/-
  Layout operations around a KEEPDIMS COLUMN, read at an index given by coordinates.

  A row reduction with keepdims produces a vector of shape [a], which is cast to the column shape [a, 1] and then
  broadcast along the rows to [a, b]; and a block of a pipelined array with two leading unit axes, [1, 1, a, b], is
  cast to the matrix shape [a, b] and back. Each lemma reads one such operation at an index written by its
  coordinates as the operand at an index written by its coordinates:
    a [1, 1, a, b] array cast to [a, b]     reads at (i, j) the operand at (0, 0, i, j);
    an [a, b] array cast to [1, 1, a, b]    reads at (u, v, i, j) the operand at (i, j);
    an [a] vector cast to the column [a, 1] reads at (i, u) the operand at i;
    a column [a, 1] broadcast to [a, b]     reads at (i, j) the column at (i, 0).
  The casts keep the row-major position; the broadcast reads coordinate 0 on the unit axis.
-/
import Idealize.ShloMosaic.Lib.Pipeline.Value
import Idealize.ShloMosaic.Lib.ValueIdx

namespace Idealize.ShloMosaic.ValueIdx

open Idealize.ShloMosaic

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelPayload.lean ====
/-
  The attention payload of one query tile, read at one element.

  The body's output payload takes the query block x0 (1024 rows of 64 features, behind two unit axes), the key
  scratch xk and the value scratch xv (2048 rows of 64 features each) and computes, for row r and feature d:
      s_j = sum over e of (x0[r, e] * c) * xk[j, e]           (the matrix unit's product, the query scaled first)
      M   = max over j of s_j, from minus infinity              (a lane reduction)
      w_j = exp (s_j - M)
      out = (sum over j of w_j * xv[j, d]) * (1 / sum over j of w_j).
  The payload is first restated over two named intermediate matrices (the scores and the weights), by definitional
  unfolding; each is then read at an index: a matrix product into a zero accumulator is the plain sum over the
  contracted axis, a lane reduction is the fold (or sum) over the row, the casts and broadcasts move coordinates
  only, and every format change is the identity on extended reals.
-/
import proofs.«404997_j1400159338596_3_alg».proof.Proof.Gen.KernelIdeal.Skeleton
import proofs.«404997_j1400159338596_3_alg».proof.Proof.LibColumn
import Idealize.ShloMosaic.Lib.ValueIdx
import Idealize.ShloMosaic.PureOps.Ideal.Laws

noncomputable section

open scoped BigOperators

namespace Cert.KernelIdeal.AttnPayload

open Cert.KernelIdeal Cert.KernelIdeal.Gen Idealize.ShloMosaic Idealize.ShloMosaic.ValueIdx

/-! ## The two matrix products at an index -/

theorem qk_lhs_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Queries times keys, contracted over the 64 features, into a zero accumulator: at (r, j) the dot product of query
    row r and key row j. -/
theorem qk_apply (a : FVec Ideal S1024x64 .bf16) (k : FVec Ideal S2048x64 .bf16) (r : Fin 1024) (j : Fin 2048) :
    matmul dot_S1024x64_S2048x64_S1024x2048_1_1_0_0_n_n none a k (constant S1024x2048 .f32 0x00000000#32) (ix2 r j)
      = ∑ e : Fin 64, a (ix2 r e) * k (ix2 j e) := by
  simp only [matmul]
  rw [Ideal.matmul_constant_zero_apply, ← Equiv.sum_comp (contrEquiv1 dot_S1024x64_S2048x64_S1024x2048_1_1_0_0_n_n 64 rfl rfl).symm]
  refine Finset.sum_congr rfl fun e _ => ?_
  have he := contrEquiv1_symm_val dot_S1024x64_S2048x64_S1024x2048_1_1_0_0_n_n 64 rfl rfl e
  have el : dot_S1024x64_S2048x64_S1024x2048_1_1_0_0_n_n.lhsIdx (ix2 r j) ((contrEquiv1 dot_S1024x64_S2048x64_S1024x2048_1_1_0_0_n_n 64 rfl rfl).symm e) = ix2 r e := funext fun ax => Fin.ext (by
    match ax with
    | ⟨0, _⟩ => exact qk_lhs_0 _ _
    | ⟨1, _⟩ => exact (qk_lhs_1 _ _).trans he)
  have er : dot_S1024x64_S2048x64_S1024x2048_1_1_0_0_n_n.rhsIdx (ix2 r j) ((contrEquiv1 dot_S1024x64_S2048x64_S1024x2048_1_1_0_0_n_n 64 rfl rfl).symm e) = ix2 j e := funext fun ax => Fin.ext (by
    match ax with
    | ⟨0, _⟩ => exact qk_rhs_0 _ _
    | ⟨1, _⟩ => exact (qk_rhs_1 _ _).trans he)
  rw [el, er]

theorem pv_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Weights times values, contracted over the 2048 keys, into a zero accumulator: at (r, d) the weighted sum of the
    values' feature d. -/
theorem pv_apply (p : FVec Ideal S1024x2048 .bf16) (v : FVec Ideal S2048x64 .bf16) (r : Fin 1024) (d : Fin 64) :
    matmul dot_S1024x2048_S2048x64_S1024x64_1_0_0_1_n_n none p v (constant S1024x64 .f32 0x00000000#32) (ix2 r d)
      = ∑ j : Fin 2048, p (ix2 r j) * v (ix2 j d) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hj := contrEquiv1_symm_val dot_S1024x2048_S2048x64_S1024x64_1_0_0_1_n_n 2048 rfl rfl j
  have el : dot_S1024x2048_S2048x64_S1024x64_1_0_0_1_n_n.lhsIdx (ix2 r d) ((contrEquiv1 dot_S1024x2048_S2048x64_S1024x64_1_0_0_1_n_n 2048 rfl rfl).symm j) = ix2 r j := funext fun ax => Fin.ext (by
    match ax with
    | ⟨0, _⟩ => exact pv_lhs_0 _ _
    | ⟨1, _⟩ => exact (pv_lhs_1 _ _).trans hj)
  have er : dot_S1024x2048_S2048x64_S1024x64_1_0_0_1_n_n.rhsIdx (ix2 r d) ((contrEquiv1 dot_S1024x2048_S2048x64_S1024x64_1_0_0_1_n_n 2048 rfl rfl).symm j) = ix2 j d := funext fun ax => Fin.ext (by
    match ax with
    | ⟨0, _⟩ => exact (pv_rhs_0 _ _).trans hj
    | ⟨1, _⟩ => exact pv_rhs_1 _ _)
  rw [el, er]

/-! ## The two lane reductions at an index -/

/-- Inserting key coordinate j into row r on the reduced axis gives (r, j). -/
theorem lift_row (r : Fin 1024) (j : Fin 2048) : reduces_S1024x2048_S1024.lift (ix1 r) j = ix2 r j :=
  funext fun ax => Fin.ext (by match ax with | ⟨0, _⟩ => rfl | ⟨1, _⟩ => rfl)

/-- The row maximum from minus infinity: the fold of max over the row's 2048 entries. -/
theorem rowmax_apply (s : FVec Ideal S1024x2048 .f32) (r : Fin 1024) :
    multiReduction .maximumf [1] S1024 s 0xFF800000#32 reduces_S1024x2048_S1024 (.inl rfl) rfl (ix1 r)
      = (Finset.univ : Finset (Fin 2048)).fold max (Ideal.ofBits .f32 0xFF800000#32) (fun j => s (ix2 r j)) := by
  have e : s ∘ reduces_S1024x2048_S1024.lift (ix1 r) = fun j : Fin 2048 => s (ix2 r j) :=
    funext fun (j : Fin 2048) => congrArg s (lift_row r j)
  refine (Ideal.multiReduction_maximumf_single s _ reduces_S1024x2048_S1024 _ _ (ix1 r)).trans ?_
  rw [e]
  rfl

/-- The row sum from zero: the sum of the row's 2048 entries. -/
theorem rowsum_apply (s : FVec Ideal S1024x2048 .f32) (r : Fin 1024) :
    multiReduction .add [1] S1024 s 0x00000000#32 reduces_S1024x2048_S1024 (.inl rfl) rfl (ix1 r)
      = ∑ j : Fin 2048, s (ix2 r j) := by
  refine (Ideal.multiReduction_add_single s _ reduces_S1024x2048_S1024 _ _ (ix1 r)).trans ?_
  exact Finset.sum_congr rfl fun (j : Fin 2048) _ => congrArg s (lift_row r j)

/-! ## The payload over its two intermediate matrices -/

section Payload
variable (x0 : Vec Ideal S1x1x1024x64 .f32) (xk xv : FVec Ideal S2048x64 .bf16)

/-- The score matrix: scaled queries times keys. -/
def scoreVec : FVec Ideal S1024x2048 .f32 :=
  matmul (φ₁ := .bf16) (φ₂ := .bf16) dot_S1024x64_S2048x64_S1024x2048_1_1_0_0_n_n none
    (truncf .bf16 (mulf (shapeCast S1024x64 x0 shapeCasts_S1x1x1024x64_S1024x64)
      (broadcast S1024x64 (Scalar.ofBits .f32 0x3E000000#32))) bitsLt_bf16_f32)
    xk (constant S1024x2048 .f32 0x00000000#32)

/-- The weight matrix: exp of each score less its row's maximum. -/
def expVec : FVec Ideal S1024x2048 .f32 :=
  exp (subf (scoreVec x0 xk)
    (broadcastTo S1024x2048
      (shapeCast S1024x1 (multiReduction .maximumf [1] S1024 (scoreVec x0 xk) 0xFF800000#32 reduces_S1024x2048_S1024 (.inl rfl) rfl)
        shapeCasts_S1024_S1024x1)
      broadcasts_S1024x1_S1024x2048))

/-- The payload is the weighted values times the broadcast reciprocal of the weights' row sums, behind two unit axes. -/
theorem pay3_eq : k0_pay3 x0 xk xv
    = shapeCast S1x1x1024x64
        (mulf (matmul (φ₁ := .bf16) (φ₂ := .bf16) dot_S1024x2048_S2048x64_S1024x64_1_0_0_1_n_n none (truncf .bf16 (expVec x0 xk) bitsLt_bf16_f32) xv (constant S1024x64 .f32 0x00000000#32))
          (broadcastTo S1024x64
            (divf (broadcast S1024x1 (Scalar.ofBits .f32 0x3F800000#32))
              (shapeCast S1024x1 (multiReduction .add [1] S1024 (expVec x0 xk) 0x00000000#32 reduces_S1024x2048_S1024 (.inl rfl) rfl)
                shapeCasts_S1024_S1024x1))
            broadcasts_S1024x1_S1024x64))
        shapeCasts_S1024x64_S1x1x1024x64 := rfl

/-- The score of the tile's row r against key j. -/
def blkScore (r : Fin 1024) (j : Fin 2048) : EReal :=
  ∑ e : Fin 64, (x0 (ix4 (0 : Fin 1) (0 : Fin 1) r e) * Ideal.ofBits .f32 0x3E000000#32) * xk (ix2 j e)

/-- The tile row's maximum score. -/
def blkMax (r : Fin 1024) : EReal :=
  (Finset.univ : Finset (Fin 2048)).fold max (Ideal.ofBits .f32 0xFF800000#32) (blkScore x0 xk r)

/-- The tile row's weight of key j. -/
def blkWeight (r : Fin 1024) (j : Fin 2048) : EReal := Ideal.exp (blkScore x0 xk r j - blkMax x0 xk r)

theorem scoreVec_apply (r : Fin 1024) (j : Fin 2048) : scoreVec x0 xk (ix2 r j) = blkScore x0 xk r j := by
  unfold scoreVec blkScore
  rw [qk_apply]
  refine Finset.sum_congr rfl fun e _ => ?_
  rw [truncf_apply, mulf_apply, shapeCast_11ab_ab_apply, broadcast_apply]
  rfl

theorem expVec_apply (r : Fin 1024) (j : Fin 2048) : expVec x0 xk (ix2 r j) = blkWeight x0 xk r j := by
  unfold expVec blkWeight
  show Ideal.exp (scoreVec x0 xk (ix2 r j) - broadcastTo S1024x2048 _ broadcasts_S1024x1_S1024x2048 (ix2 r j)) = _
  rw [scoreVec_apply, broadcastTo_a1_ab_apply, shapeCast_a_a1_apply, rowmax_apply]
  unfold blkMax
  rw [show (fun j => scoreVec x0 xk (ix2 r j)) = blkScore x0 xk r from funext fun j => scoreVec_apply x0 xk r j]

/-- THE PAYLOAD AT (r, d): the weighted sum of the values' feature d, times the reciprocal of the weights' sum. -/
theorem pay3_at (r : Fin 1024) (d : Fin 64) :
    k0_pay3 x0 xk xv (ix4 (0 : Fin 1) (0 : Fin 1) r d)
      = (∑ j : Fin 2048, blkWeight x0 xk r j * xv (ix2 j d))
          * Ideal.div (Ideal.ofBits .f32 0x3F800000#32) (∑ j : Fin 2048, blkWeight x0 xk r j) := by
  rw [pay3_eq, shapeCast_ab_11ab_apply, mulf_apply, pv_apply, broadcastTo_a1_ab_apply, divf_apply, broadcast_apply,
    shapeCast_a_a1_apply, rowsum_apply]
  simp only [truncf_apply, expVec_apply]
  rfl

end Payload

/-! ## The two scratch payloads at an index -/

/-- The key (or value) scratch payload is the block itself with its two unit axes dropped: at (j, e) the block at
    (0, 0, j, e). -/
theorem pay1_at (x1 : Vec Ideal S1x1x2048x64 .f32) (j : Fin 2048) (e : Fin 64) :
    k0_pay1 x1 (ix2 j e) = x1 (ix4 (0 : Fin 1) (0 : Fin 1) j e) := by
  unfold k0_pay1
  rw [shapeCast_self, truncf_apply, shapeCast_11ab_ab_apply]

theorem pay2_at (x2 : Vec Ideal S1x1x2048x64 .f32) (j : Fin 2048) (e : Fin 64) :
    k0_pay2 x2 (ix2 j e) = x2 (ix4 (0 : Fin 1) (0 : Fin 1) j e) := by
  unfold k0_pay2
  rw [shapeCast_self, truncf_apply, shapeCast_11ab_ab_apply]

end Cert.KernelIdeal.AttnPayload

end
-- ==== Proof.KernelValue.lean ====
/-
  What the kernel's result array holds after the run: attention in the kernel's arrangement (`Cert.Attn.attn`) of
  the three argument arrays, at every index.

  The grid has 64 points, t = (b * 16 + h) * 2 + qi: batch b = t / 32, head h = (t / 2) mod 16, query tile
  qi = t mod 2. At point t the query window holds rows 1024 * qi .. 1024 * qi + 1023 of head (b, h) of Q, the key
  and value windows hold all 2048 rows of head (b, h) of K and V (their block index ignores qi), and the output
  window's block is rows 1024 * qi .. of head (b, h) of the result.

  At an even point the body refills both scratch buffers from the key and value blocks and computes from them; at an
  odd point it computes from what the point before left, and the point before an odd point is the even point of the
  SAME head, whose key and value blocks are the same rows of K and V. So at every point the output block is the
  attention payload of that point's query rows against its head's keys and values, which element by element is
  `attnAt` of the argument arrays at (b, h, 1024 * qi + r, d). The 64 output blocks tile the result array (row q of
  head (b, h) lies in the block of the point with qi = q / 1024), so the array ends at `attn`.
-/
import proofs.«404997_j1400159338596_3_alg».proof.Proof.Gen.KernelIdeal.Value
import proofs.«404997_j1400159338596_3_alg».proof.Proof.KernelPieces
import proofs.«404997_j1400159338596_3_alg».proof.Proof.KernelPayload
import proofs.«404997_j1400159338596_3_alg».proof.Proof.Spec

noncomputable section

open scoped BigOperators

namespace Cert.KernelIdeal.AttnValue

open Cert.KernelIdeal Cert.KernelIdeal.Gen Cert.KernelIdeal.AttnPayload Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## The grid point's batch, head and query rows -/

theorem N64 : cfg0.N = 64 := N_0

/-- The batch of grid point t. -/
def bOf (t : Fin cfg0.N) : Fin 2 := ⟨t.val / 32, by have h1 := t.isLt; have h2 := N64; omega⟩
/-- The head of grid point t. -/
def hOf (t : Fin cfg0.N) : Fin 16 := ⟨t.val / 2 % 16, Nat.mod_lt _ (by decide)⟩
/-- Row r of grid point t's query tile, as a row of the head. -/
def rowOf (t : Fin cfg0.N) (r : Fin 1024) : Fin 2048 := ⟨1024 * (t.val % 2) + r.val, by have := r.isLt; omega⟩

/-- The printed index maps, decided over the 64 points: the query and output windows sit at block (b, h, qi, 0), the
    key and value windows at block (b, h, 0, 0). -/
theorem idx_facts : ∀ t : Fin cfg0.N,
    (win0_0.index t (0 : Fin 4) = t.val / 32 ∧ win0_0.index t (1 : Fin 4) = t.val / 2 % 16
      ∧ win0_0.index t (2 : Fin 4) = t.val % 2 ∧ win0_0.index t (3 : Fin 4) = 0)
    ∧ (win0_1.index t (0 : Fin 4) = t.val / 32 ∧ win0_1.index t (1 : Fin 4) = t.val / 2 % 16
      ∧ win0_1.index t (2 : Fin 4) = 0 ∧ win0_1.index t (3 : Fin 4) = 0)
    ∧ (win0_2.index t (0 : Fin 4) = t.val / 32 ∧ win0_2.index t (1 : Fin 4) = t.val / 2 % 16
      ∧ win0_2.index t (2 : Fin 4) = 0 ∧ win0_2.index t (3 : Fin 4) = 0)
    ∧ (win0_3.index t (0 : Fin 4) = t.val / 32 ∧ win0_3.index t (1 : Fin 4) = t.val / 2 % 16
      ∧ win0_3.index t (2 : Fin 4) = t.val % 2 ∧ win0_3.index t (3 : Fin 4) = 0) :=
  (by decide +kernel : ∀ t : Fin grid0.N, _)

/-! ## The windows' blocks, read at an element -/

/-- The query block at point t, row r, feature e, is Q at (b, h, 1024 * qi + r, e). -/
theorem qblk_at (c : Dev nD) (t : Fin cfg0.N) (r : Fin 1024) (e : Fin 64) :
    (iblk m c 0 t : Vec Ideal S1x1x1024x64 .f32) (ix4 (0 : Fin 1) (0 : Fin 1) r e)
      = V m c main_arg0 (ix4 (bOf t) (hOf t) (rowOf t r) e) := by
  obtain ⟨⟨h0, h1, h2, h3⟩, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * 0 = t.val / 32; omega
  | ⟨1, _⟩ => show win0_0.index t (1 : Fin 4) * 1 + 1 * 0 = t.val / 2 % 16; omega
  | ⟨2, _⟩ => show win0_0.index t (2 : Fin 4) * 1024 + 1 * r.val = 1024 * (t.val % 2) + r.val; omega
  | ⟨3, _⟩ => show win0_0.index t (3 : Fin 4) * 64 + 1 * e.val = e.val; omega

/-- The key block at point t, row j, feature e, is K at (b, h, j, e). -/
theorem kblk_at (c : Dev nD) (t : Fin cfg0.N) (j : Fin 2048) (e : Fin 64) :
    (iblk m c 1 t : Vec Ideal S1x1x2048x64 .f32) (ix4 (0 : Fin 1) (0 : Fin 1) j e)
      = V m c main_arg1 (ix4 (bOf t) (hOf t) j e) := by
  obtain ⟨-, ⟨h0, h1, h2, h3⟩, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 4) * 1 + 1 * 0 = t.val / 32; omega
  | ⟨1, _⟩ => show win0_1.index t (1 : Fin 4) * 1 + 1 * 0 = t.val / 2 % 16; omega
  | ⟨2, _⟩ => show win0_1.index t (2 : Fin 4) * 2048 + 1 * j.val = j.val; omega
  | ⟨3, _⟩ => show win0_1.index t (3 : Fin 4) * 64 + 1 * e.val = e.val; omega

/-- The value block at point t, row j, feature d, is V at (b, h, j, d). -/
theorem vblk_at (c : Dev nD) (t : Fin cfg0.N) (j : Fin 2048) (d : Fin 64) :
    (iblk m c 2 t : Vec Ideal S1x1x2048x64 .f32) (ix4 (0 : Fin 1) (0 : Fin 1) j d)
      = V m c main_arg2 (ix4 (bOf t) (hOf t) j d) := by
  obtain ⟨-, -, ⟨h0, h1, h2, h3⟩, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 4) * 1 + 1 * 0 = t.val / 32; omega
  | ⟨1, _⟩ => show win0_2.index t (1 : Fin 4) * 1 + 1 * 0 = t.val / 2 % 16; omega
  | ⟨2, _⟩ => show win0_2.index t (2 : Fin 4) * 2048 + 1 * j.val = j.val; omega
  | ⟨3, _⟩ => show win0_2.index t (3 : Fin 4) * 64 + 1 * d.val = d.val; omega

/-! ## The payload against whole arrays -/

/-- If the query block's row r is row q of head (b, h) of Q, and the two scratch operands are head (b, h) of K and V,
    the payload at (r, d) is attention of Q, K, V at (b, h, q, d). -/
theorem pay3_attn (x0 : Vec Ideal S1x1x1024x64 .f32) (xk xv : FVec Ideal S2048x64 .bf16)
    (Q K W : Cert.Attn.SQ.Idx → EReal) (b : Fin 2) (h : Fin 16) (q : Fin 2048) (r : Fin 1024)
    (hq : ∀ e : Fin 64, x0 (ix4 (0 : Fin 1) (0 : Fin 1) r e) = Q (ix4 b h q e))
    (hk : ∀ (j : Fin 2048) (e : Fin 64), xk (ix2 j e) = K (ix4 b h j e))
    (hv : ∀ (j : Fin 2048) (d : Fin 64), xv (ix2 j d) = W (ix4 b h j d)) (d : Fin 64) :
    k0_pay3 x0 xk xv (ix4 (0 : Fin 1) (0 : Fin 1) r d) = Cert.Attn.attnAt Q K W b h q d := by
  rw [pay3_at]
  have hs : blkScore x0 xk r = Cert.Attn.score Q K b h q := funext fun j => by
    unfold blkScore Cert.Attn.score
    exact Finset.sum_congr rfl fun e _ => by rw [hq, hk]
  have hM : blkMax x0 xk r = Cert.Attn.rowMax Q K b h q := by
    unfold blkMax Cert.Attn.rowMax; rw [hs]
  have hw : blkWeight x0 xk r = Cert.Attn.weight Q K b h q := funext fun j => by
    unfold blkWeight Cert.Attn.weight; rw [hs, hM]
  unfold Cert.Attn.attnAt
  rw [hw]
  simp only [hv]

/-! ## What each point leaves in the scratch buffers and in the output block -/

/-- After an even point the key scratch holds the key payload of that point's key block, -/
theorem keyScr_even (c : Dev nD) (t : Fin cfg0.N) (h0 : t.val % 2 = 0) :
    (outsAt0 m c t.val t.isLt).2.1 = k0_pay1 (iblk m c 1 t) := by
  rw [outsAt0_A m c t h0]
  dsimp only
  exact keyScratch_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)

/-- and the value scratch the value payload of its value block. -/
theorem valScr_even (c : Dev nD) (t : Fin cfg0.N) (h0 : t.val % 2 = 0) :
    (outsAt0 m c t.val t.isLt).2.2 = k0_pay2 (iblk m c 2 t) := by
  rw [outsAt0_A m c t h0]
  dsimp only
  exact valScratch_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)

/-- THE OUTPUT BLOCK after point t, at row r and feature d: attention of the argument arrays at
    (b, h, 1024 * qi + r, d). -/
theorem out_at (c : Dev nD) (t : Fin cfg0.N) (r : Fin 1024) (d : Fin 64) :
    ((outsAt0 m c t.val t.isLt).1 : Vec Ideal S1x1x1024x64 .f32) (ix4 (0 : Fin 1) (0 : Fin 1) r d)
      = Cert.Attn.attnAt (V m c main_arg0) (V m c main_arg1) (V m c main_arg2) (bOf t) (hOf t) (rowOf t r) d := by
  by_cases h0 : t.val % 2 = 0
  · rw [outsAt0_A m c t h0]
    dsimp only
    rw [out_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)]
    exact pay3_attn (iblk m c 0 t) (k0_pay1 (iblk m c 1 t)) (k0_pay2 (iblk m c 2 t)) _ _ _ (bOf t) (hOf t) (rowOf t r) r
      (fun e => qblk_at m c t r e)
      (fun j e => (pay1_at (iblk m c 1 t) j e).trans (kblk_at m c t j e))
      (fun j d' => (pay2_at (iblk m c 2 t) j d').trans (vblk_at m c t j d')) d
  · have hlt : t.val - 1 < cfg0.N := Nat.lt_of_le_of_lt (Nat.sub_le _ _) t.isLt
    have hprev : (⟨t.val - 1, hlt⟩ : Fin cfg0.N).val % 2 = 0 := by show (t.val - 1) % 2 = 0; omega
    have hb : bOf ⟨t.val - 1, hlt⟩ = bOf t := Fin.ext (by show (t.val - 1) / 32 = t.val / 32; omega)
    have hh : hOf ⟨t.val - 1, hlt⟩ = hOf t := Fin.ext (by show (t.val - 1) / 2 % 16 = t.val / 2 % 16; omega)
    rw [outsAt0_B m c t h0]
    dsimp only
    rw [out_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t)
      (outsAt0 m c (t.val - 1) hlt).2.1 (outsAt0 m c (t.val - 1) hlt).2.2]
    refine pay3_attn (iblk m c 0 t) (outsAt0 m c (t.val - 1) hlt).2.1 (outsAt0 m c (t.val - 1) hlt).2.2 _ _ _ (bOf t) (hOf t) (rowOf t r) r
      (fun e => qblk_at m c t r e) (fun j e => ?_) (fun j d' => ?_) d
    · refine (congrFun (keyScr_even m c ⟨t.val - 1, hlt⟩ hprev) (ix2 j e)).trans ?_
      rw [pay1_at, kblk_at, hb, hh]
    · refine (congrFun (valScr_even m c ⟨t.val - 1, hlt⟩ hprev) (ix2 j d')).trans ?_
      rw [pay2_at, vblk_at, hb, hh]

/-! ## From the blocks to the array -/

/-- The result array's contents: attention of the argument arrays as the region finds them. -/
abbrev result (c : Dev nD) : Buf (Elt Ideal) ((c : Thread nD τ).loc main_v0) :=
  Cert.Attn.attn (V m c main_arg0) (V m c main_arg1) (V m c main_arg2)

/-- What point t writes back is block t of the result. -/
theorem flushed_eq (c : Dev nD) (t : Fin cfg0.N) :
    (dats m 0 c).flushed 3 t = ((cfg0.win 3).blk t).view.read (Elt Ideal) (result m c) := by
  obtain ⟨-, -, -, ⟨h0, h1, h2, h3⟩⟩ := idx_facts t
  rw [Cert.KernelIdeal.Value.flushed3]
  funext y
  obtain ⟨u, v, r, d, rfl⟩ : ∃ (u v : Fin 1) (r : Fin 1024) (d : Fin 64), y = ix4 u v r d := ⟨y 0, y 1, y 2, y 3, eq_ix4 y⟩
  obtain rfl : u = 0 := Subsingleton.elim _ _
  obtain rfl : v = 0 := Subsingleton.elim _ _
  show ((outsAt0 m c t.val t.isLt).1 : Vec Ideal S1x1x1024x64 .f32) (ix4 (0 : Fin 1) (0 : Fin 1) r d) = _
  rw [out_at, View.read_apply]
  show _ = result m c (((cfg0.win 3).blk t).view.emb (ix4 (0 : Fin 1) (0 : Fin 1) r d))
  unfold result Cert.Attn.attn
  have hi : ((cfg0.win 3).blk t).view.emb (ix4 (0 : Fin 1) (0 : Fin 1) r d) = ix4 (bOf t) (hOf t) (rowOf t r) d :=
    funext fun a => Fin.ext (by
      match a with
      | ⟨0, _⟩ => show win0_3.index t (0 : Fin 4) * 1 + 1 * 0 = t.val / 32; omega
      | ⟨1, _⟩ => show win0_3.index t (1 : Fin 4) * 1 + 1 * 0 = t.val / 2 % 16; omega
      | ⟨2, _⟩ => show win0_3.index t (2 : Fin 4) * 1024 + 1 * r.val = 1024 * (t.val % 2) + r.val; omega
      | ⟨3, _⟩ => show win0_3.index t (3 : Fin 4) * 64 + 1 * d.val = d.val; omega)
  rw [hi]

/-- An index of the array is in point t's block iff each coordinate is in the block's range on its axis. -/
theorem mem_blk (t : Fin cfg0.N) (i : S2x16x2048x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0).slice (win0_3.rect t)).set ↔ _
  rw [View.set_slice_whole, Rect.mem_set_unit]
  exact Iff.rfl

/-- Every index of the result array lies in the block of the point (b, h, q / 1024). -/
theorem cover (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  have hN := N64
  let t : Fin cfg0.N := ⟨((i 0).val * 16 + (i 1).val) * 2 + (i 2).val / 1024, by rw [hN]; omega⟩
  have ht : t.val = ((i 0).val * 16 + (i 1).val) * 2 + (i 2).val / 1024 := rfl
  obtain ⟨-, -, -, ⟨h0, h1, h2, h3⟩⟩ := idx_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- THE ARRAY after the run is attention of the argument arrays. -/
theorem final (c : Dev nD) : (dats m 0 c).arrAt 3 cfg0.N = result m c :=
  (dats m 0 c).arrAt_eq_of_cover 3 (result m c) (fun t _ => flushed_eq m c t) cover

/-- The run, read: the result array at attention of the arguments as launched, the arguments unchanged. -/
theorem run : θ_run defs (onTc (τ := τ) (main (F := Ideal))) ⟨m, fun _ => 0, ρ⟩ fun r => ∀ c : Dev nD,
      r.2.mem ((c : Thread nD τ).loc main_v0)
        = Cert.Attn.attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.AttnValue

end
-- ==== Proof.RefValue.lean ====
/-
  The reference program's result, stage by stage at explicit coordinates (batch b, head h, query q, key j,
  feature d), is attention in the reference's arrangement (`Cert.Attn.attnRef`):
    stage 4   the scaled score          (Q·K over the 64 features) * (1 / sqrt 64)
    stage 7   the row maximum           max (-inf) (max over the 2048 keys of stage 4, from -inf)
    stage 11  the unnormalised weight   exp (stage 4 - stage 7)
    stage 14  the denominator           0 + sum over the 2048 keys of stage 11
    stage 16  the result                sum over keys of (stage 11 / stage 14) * V
  The one stage the generated read-at-an-index module leaves unread, the maximum over the key axis, is a fold of
  max over that axis's 2048 coordinates because max is commutative and associative. Nothing here needs the inputs
  to be finite: it is the program's own arithmetic, re-indexed.
-/
import proofs.«404997_j1400159338596_3_alg».proof.Proof.Gen.ReferenceIdeal.Read
import proofs.«404997_j1400159338596_3_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S2x16x2048x64, .f32⟩ : BufTy).Contents (Elt Ideal))

/-! ## The composed index maps at explicit coordinates -/

theorem lidx2 (b : Fin 2) (h : Fin 16) (q j : Fin 2048) (e : Fin 64) :
    lidx_main_v2 (ix4 b h q j) e = ix4 b h q e :=
  funext fun a => by match a with | ⟨0, _⟩ => rfl | ⟨1, _⟩ => rfl | ⟨2, _⟩ => rfl | ⟨3, _⟩ => rfl

theorem ridx2 (b : Fin 2) (h : Fin 16) (q j : Fin 2048) (e : Fin 64) :
    ridx_main_v2 (ix4 b h q j) e = ix4 b h j e :=
  funext fun a => by match a with | ⟨0, _⟩ => rfl | ⟨1, _⟩ => rfl | ⟨2, _⟩ => rfl | ⟨3, _⟩ => rfl

theorem idx89 (b : Fin 2) (h : Fin 16) (q j : Fin 2048) :
    idx_main_v8 (idx_main_v9 (ix4 b h q j)) = ix3 b h q :=
  funext fun a => by match a with | ⟨0, _⟩ => rfl | ⟨1, _⟩ => rfl | ⟨2, _⟩ => rfl

theorem idx1234 (b : Fin 2) (h : Fin 16) (q j k : Fin 2048) :
    idx_main_v12 (idx_main_v13 (idx_main_v14 (ix4 b h q j))) k = ix4 b h q k :=
  funext fun a => by match a with | ⟨0, _⟩ => rfl | ⟨1, _⟩ => rfl | ⟨2, _⟩ => rfl | ⟨3, _⟩ => rfl

theorem lidx16 (b : Fin 2) (h : Fin 16) (q : Fin 2048) (d : Fin 64) (k : Fin 2048) :
    lidx_main_v16 (ix4 b h q d) k = ix4 b h q k :=
  funext fun a => by match a with | ⟨0, _⟩ => rfl | ⟨1, _⟩ => rfl | ⟨2, _⟩ => rfl | ⟨3, _⟩ => rfl

theorem ridx16 (b : Fin 2) (h : Fin 16) (q : Fin 2048) (d : Fin 64) (k : Fin 2048) :
    ridx_main_v16 (ix4 b h q d) k = ix4 b h k d :=
  funext fun a => by match a with | ⟨0, _⟩ => rfl | ⟨1, _⟩ => rfl | ⟨2, _⟩ => rfl | ⟨3, _⟩ => rfl

/-! ## The stages -/

/-- Stage 4 at (b, h, q, j): the dot product of query row q and key row j over the features, times 1 / sqrt 64. -/
theorem score_at (b : Fin 2) (h : Fin 16) (q j : Fin 2048) :
    val_main_v4 (F := Ideal) x0 x1 (ix4 b h q j) = scoreRef x0 x1 b h q j := by
  rw [val_main_v4_apply, val_main_v2_apply, val_main_v3_apply, val_main_v1_apply, val_main_v0_apply,
    val_main_cst_apply, val_main_cst_0_apply]
  simp only [lidx2, ridx2]
  rfl

/-- The key axis of the score array can be reduced away. -/
theorem reduces_keys : S2x16x2048x2048.Reduces [3] S2x16x2048 := by decide

/-- Inserting key coordinate k into (b, h, q) on the reduced axis gives (b, h, q, k). -/
theorem lift_keys (b : Fin 2) (h : Fin 16) (q k : Fin 2048) :
    reduces_keys.lift (ix3 b h q) k = ix4 b h q k :=
  funext fun a => Fin.ext (by match a with | ⟨0, _⟩ => rfl | ⟨1, _⟩ => rfl | ⟨2, _⟩ => rfl | ⟨3, _⟩ => rfl)

/-- Stage 7 at (b, h, q): the maximum with minus infinity of the running maximum of the row's scores. -/
theorem rowMax_at (b : Fin 2) (h : Fin 16) (q : Fin 2048) :
    val_main_v7 (F := Ideal) x0 x1 (ix3 b h q) = rowMaxRef x0 x1 b h q := by
  rw [val_main_v7_apply, val_main_v6_apply, val_main_cst_2_apply]
  unfold val_main_v5 rowMaxRef
  rw [Host.reduce_eq_fold_single FloatOps.maximumf _ _ reducesTo_S2x16x2048x2048_S2x16x2048_d3 reduces_keys h_S_]
  have e : (val_main_v4 (F := Ideal) x0 x1) ∘ reduces_keys.lift (ix3 b h q) = scoreRef x0 x1 b h q :=
    funext fun (k : Fin 2048) =>
      (congrArg (val_main_v4 (F := Ideal) x0 x1) (lift_keys b h q k)).trans (score_at x0 x1 b h q k)
  rw [e]
  rfl

/-- Stage 11 at (b, h, q, j): exp of the score less the row maximum. -/
theorem weight_at (b : Fin 2) (h : Fin 16) (q j : Fin 2048) :
    val_main_v11 (F := Ideal) x0 x1 (ix4 b h q j) = weightRef x0 x1 b h q j := by
  rw [val_main_v11_apply, val_main_v10_apply, score_at, val_main_v9_apply, val_main_v8_apply, idx89, rowMax_at]
  rfl

/-- Stage 14 at (b, h, q, j): zero plus the sum of the row's weights. -/
theorem denom_at (b : Fin 2) (h : Fin 16) (q j : Fin 2048) :
    val_main_v14 (F := Ideal) x0 x1 (ix4 b h q j)
      = Ideal.ofBits .f32 0x00000000#32 + ∑ j' : Fin 2048, weightRef x0 x1 b h q j' := by
  rw [val_main_v14_apply, val_main_v13_apply, val_main_v12_apply, val_main_cst_3_apply]
  refine congrArg₂ (· + ·) rfl (Finset.sum_congr rfl fun k _ => ?_)
  rw [idx1234, weight_at]

/-- THE REFERENCE'S RESULT is attention in the reference's arrangement. -/
theorem result_eq : val_main_v16 (F := Ideal) x0 x1 x2 = attnRef x0 x1 x2 := by
  funext i
  obtain ⟨b, h, q, d, rfl⟩ : ∃ (b : Fin 2) (h : Fin 16) (q : Fin 2048) (d : Fin 64), i = ix4 b h q d :=
    ⟨i 0, i 1, i 2, i 3, eq_ix4 i⟩
  rw [val_main_v16_apply]
  show _ = attnRefAt x0 x1 x2 b h q d
  unfold attnRefAt
  refine Finset.sum_congr rfl fun k _ => ?_
  rw [lidx16, ridx16, val_main_v15_apply, weight_at, denom_at]
  rfl

end Cert.ReferenceIdeal.RefValue

end
-- ==== Proof.Finite.lean ====
/-
  What the precondition says of the inputs: every entry of each of the three arrays is a real number.

  The printed precondition is the conjunction, over the three inputs, of "every entry's absolute value is below
  plus infinity" (an and-reduction of an elementwise comparison against the word 0x7F800000). On the extended
  reals the absolute value of either infinity is plus infinity, which is not below itself; so an entry whose
  absolute value is below plus infinity is neither infinity, that is, it is a real number.
-/
import proofs.«404997_j1400159338596_3_alg».proof.Pre_finite_inputs
import proofs.«404997_j1400159338596_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Real

open Idealize.ShloMosaic Cert.Pre_finite_inputs

/-- The scalar shape has one index. -/
instance : Subsingleton S_.Idx := ⟨fun a b => funext fun d => d.elim0⟩

/-- The word 0x7F800000 denotes plus infinity. -/
theorem ofBits_pos_inf : Ideal.ofBits .f32 0x7F800000#32 = (⊤ : EReal) := by
  simp [Ideal.ofBits, Ideal.ieee]

/-- An extended real whose absolute value compares below plus infinity is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_pos_inf] at h
  induction x using EReal.rec with
  | bot =>
    exfalso
    have : FloatOps.cmpf (F := Ideal) (φ := .f32) .olt (FloatOps.hostAbsf (F := Ideal) (φ := .f32) (⊥ : EReal)) (⊤ : EReal) = 0#1 := by
      show BitVec.ofBool (decide (max (⊥ : EReal) (-⊥) < ⊤)) = 0#1
      simp
    rw [this] at h
    exact absurd h (by decide)
  | top =>
    exfalso
    have : FloatOps.cmpf (F := Ideal) (φ := .f32) .olt (FloatOps.hostAbsf (F := Ideal) (φ := .f32) (⊤ : EReal)) (⊤ : EReal) = 0#1 := by
      show BitVec.ofBool (decide (max (⊤ : EReal) (-⊤) < ⊤)) = 0#1
      simp
    rw [this] at h
    exact absurd h (by decide)
  | coe r => exact ⟨r, rfl⟩

variable [Facts]

/-- THE PRECONDITION, READ: where it holds, every entry of each input is a real. -/
theorem real_of_pre (x0 x1 x2 : FVec Ideal S2x16x2048x64 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · exact real_of_abs_lt (x0 i) (Host.reduce_andi_all _ _ _ _ _ h0' i)
  · exact real_of_abs_lt (x1 i) (Host.reduce_andi_all _ _ _ _ _ h1 i)
  · exact real_of_abs_lt (x2 i) (Host.reduce_andi_all _ _ _ _ _ h2 i)

end Cert.Pre_finite_inputs.Real

end
-- ==== Proof.lean ====
/- The certificate: the attention kernel against the jnp reference, over the extended reals.

   The kernel computes single-pass softmax attention one query tile at a time. For each of the 2 * 16 heads it
   visits two tiles of 1024 query rows; at the first it copies the head's 2048 key rows and 2048 value rows into two
   scratch buffers, and at both it scales the query tile by 1/8, takes its products with the keys, subtracts each
   row's maximum, exponentiates, and multiplies the weighted sum of the values by the reciprocal of the weights' sum.
   The reference scales the products by 1 / sqrt 64 instead, divides each weight by the weights' sum, and then takes the
   weighted sum of the values.

   The two results are the same function of finite inputs:
     - 1/8 and 1 / sqrt 64 are the same real number, and a real factor moves across a finite sum of reals;
     - both row maxima are the maximum of the same 2048 reals (the reference's extra maximum with minus infinity
       changes nothing), a real, so every weight is a positive real and their sum is a positive real;
     - dividing each weight by that sum before summing is multiplying the sum by its reciprocal afterwards.
   The precondition (every input entry finite) is what makes every quantity above a real number.

   The modules: Consts (the float words as reals), Spec (the two arrangements and their agreement), LibColumn
   (keepdims-column layout operations read at an index), KernelPieces (what each control case leaves in the
   buffers), KernelPayload (the body's output at one element), KernelValue (the result array after the run),
   RefValue (the reference's result stage by stage), Finite (the precondition read as "every entry is a real").
   The three frames are the generated ones; the idealization rewrote nothing, so `preserves` is trivial. -/
import proofs.«404997_j1400159338596_3_alg».proof.Defs
import proofs.«404997_j1400159338596_3_alg».proof.Proof.Gen.Kernel
import proofs.«404997_j1400159338596_3_alg».proof.Proof.Gen.Kernel.Skeleton
import proofs.«404997_j1400159338596_3_alg».proof.Proof.Gen.Kernel.Launch
import proofs.«404997_j1400159338596_3_alg».proof.Proof.Gen.Kernel.Points
import proofs.«404997_j1400159338596_3_alg».proof.Proof.Gen.Kernel.Frame
import proofs.«404997_j1400159338596_3_alg».proof.Proof.Gen.KernelIdeal
import proofs.«404997_j1400159338596_3_alg».proof.Proof.Gen.KernelIdeal.Skeleton
import proofs.«404997_j1400159338596_3_alg».proof.Proof.Gen.KernelIdeal.Launch
import proofs.«404997_j1400159338596_3_alg».proof.Proof.Gen.KernelIdeal.Points
import proofs.«404997_j1400159338596_3_alg».proof.Proof.Gen.KernelIdeal.Frame
import proofs.«404997_j1400159338596_3_alg».proof.Proof.Gen.KernelIdeal.Value
import proofs.«404997_j1400159338596_3_alg».proof.Proof.Gen.ReferenceIdeal
import proofs.«404997_j1400159338596_3_alg».proof.Proof.Gen.ReferenceIdeal.Run
import proofs.«404997_j1400159338596_3_alg».proof.Proof.Gen.ReferenceIdeal.Read
import proofs.«404997_j1400159338596_3_alg».proof.Proof.Gen.Pre_finite_inputs
import proofs.«404997_j1400159338596_3_alg».proof.Proof.Spec
import proofs.«404997_j1400159338596_3_alg».proof.Proof.KernelValue
import proofs.«404997_j1400159338596_3_alg».proof.Proof.RefValue
import proofs.«404997_j1400159338596_3_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the three inputs, both programs end with the same result array: the kernel's is
    attention in its own arrangement of its inputs; the reference's is attention in the reference's arrangement of
    the same inputs, and on finite inputs the two arrangements agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2]
  obtain ⟨hQ, hK, hV⟩ := @Cert.Pre_finite_inputs.Real.real_of_pre Cert.Pre_finite_inputs.Gen.facts _ _ _ (hpre c)
  exact Cert.Attn.attnRef_eq_attn _ _ _ hQ hK hV

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
